-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128 : Shape := ⟨1, ![128]⟩
abbrev S128x128 : Shape := ⟨2, ![128, 128]⟩
abbrev S5000x128 : Shape := ⟨2, ![5000, 128]⟩
abbrev S5000 : Shape := ⟨1, ![5000]⟩
abbrev S5000x1 : Shape := ⟨2, ![5000, 1]⟩
abbrev S1x128 : Shape := ⟨2, ![1, 128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩

abbrev nBuf : Space → Nat
  | .hbm => 72
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000x128, .f32⟩
  | .hbm, ⟨7, _⟩ => ⟨S1x800000, .i32⟩
  | .hbm, ⟨8, _⟩ => ⟨S800000, .i32⟩
  | .hbm, ⟨9, _⟩ => ⟨S50000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000, .f32⟩
  | .hbm, ⟨54, _⟩ => ⟨S850000, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x128, .f32⟩
  | .hbm, ⟨64, _⟩ => ⟨S850000x1, .f32⟩
  | .hbm, ⟨65, _⟩ => ⟨S850000x128, .f32⟩
  | .hbm, ⟨66, _⟩ => ⟨S850000x128, .f32⟩
  | .hbm, ⟨67, _⟩ => ⟨S_, .f32⟩
  | .hbm, ⟨68, _⟩ => ⟨S50000x128, .f32⟩
  | .hbm, ⟨69, _⟩ => ⟨S850000x1, .i32⟩
  | .hbm, ⟨70, _⟩ => ⟨S50000x128, .f32⟩
  | .hbm, ⟨71, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128, .f32⟩
  | .local _ .vmem, ⟨3, _⟩ => ⟨S128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v20 : Ref sig .tc := ⟨.hbm, 34, rfl⟩
abbrev main_c : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  reduces_S5000x128_S5000 : S5000x128.Reduces [1] S5000
  shapeCasts_S5000_S5000x1 : S5000.ShapeCasts S5000x1
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  dot_S5000x128_S128x128_S5000x128_1_1_0_0_n_n_wf : DotDims.WF S5000x128 S128x128 S5000x128 [1] [1] [0] [0] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128 : Shape := ⟨1, ![128]⟩
abbrev S128x128 : Shape := ⟨2, ![128, 128]⟩
abbrev S_ : Shape := ⟨0, ![]⟩
abbrev S50000 : Shape := ⟨1, ![50000]⟩
abbrev S50000x1 : Shape := ⟨2, ![50000, 1]⟩
abbrev S1x128 : Shape := ⟨2, ![1, 128]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x128 : Shape := ⟨2, ![850000, 128]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S50000, .f32⟩
  | .hbm, ⟨8, _⟩ => ⟨S50000x1, .f32⟩
  | .hbm, ⟨9, _⟩ => ⟨S_, .f32⟩
  | .hbm, ⟨10, _⟩ => ⟨S50000x1, .f32⟩
  | .hbm, ⟨11, _⟩ => ⟨S50000x1, .f32⟩
  | .hbm, ⟨12, _⟩ => ⟨S50000x128, .f32⟩
  | .hbm, ⟨13, _⟩ => ⟨S50000x128, .f32⟩
  | .hbm, ⟨14, _⟩ => ⟨S50000x128, .f32⟩
  | .hbm, ⟨15, _⟩ => ⟨S_, .f32⟩
  | .hbm, ⟨16, _⟩ => ⟨S50000, .f32⟩
  | .hbm, ⟨17, _⟩ => ⟨S50000x1, .f32⟩
  | .hbm, ⟨18, _⟩ => ⟨S_, .f32⟩
  | .hbm, ⟨19, _⟩ => ⟨S50000x1, .f32⟩
  | .hbm, ⟨20, _⟩ => ⟨S50000x1, .f32⟩
  | .hbm, ⟨21, _⟩ => ⟨S50000x128, .f32⟩
  | .hbm, ⟨22, _⟩ => ⟨S50000x128, .f32⟩
  | .hbm, ⟨23, _⟩ => ⟨S_, .f32⟩
  | .hbm, ⟨24, _⟩ => ⟨S50000x1, .f32⟩
  | .hbm, ⟨25, _⟩ => ⟨S50000x1, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S128x128, .f32⟩
  | .hbm, ⟨36, _⟩ => ⟨S50000x128, .f32⟩
  | .hbm, ⟨37, _⟩ => ⟨S1x800000, .i32⟩
  | .hbm, ⟨38, _⟩ => ⟨S800000, .i32⟩
  | .hbm, ⟨39, _⟩ => ⟨S50000, .i32⟩
  | .hbm, ⟨40, _⟩ => ⟨S850000, .i32⟩
  | .hbm, ⟨41, _⟩ => ⟨S1x800000, .i32⟩
  | .hbm, ⟨42, _⟩ => ⟨S800000, .i32⟩
  | .hbm, ⟨43, _⟩ => ⟨S50000, .i32⟩
  | .hbm, ⟨44, _⟩ => ⟨S850000, .i32⟩
  | .hbm, ⟨45, _⟩ => ⟨S_, .f32⟩
  | .hbm, ⟨46, _⟩ => ⟨S800000, .f32⟩
  | .hbm, ⟨47, _⟩ => ⟨S_, .f32⟩
  | .hbm, ⟨48, _⟩ => ⟨S50000, .f32⟩
  | .hbm, ⟨49, _⟩ => ⟨S850000, .f32⟩
  | .hbm, ⟨50, _⟩ => ⟨S_, .f32⟩
  | .hbm, ⟨51, _⟩ => ⟨S50000, .f32⟩
  | .hbm, ⟨52, _⟩ => ⟨S850000x1, .i32⟩
  | .hbm, ⟨53, _⟩ => ⟨S50000, .f32⟩
  | .hbm, ⟨54, _⟩ => ⟨S_, .f32⟩
  | .hbm, ⟨55, _⟩ => ⟨S50000, .f32⟩
  | .hbm, ⟨56, _⟩ => ⟨S50000, .i1⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000, .f32⟩
  | .hbm, ⟨61, _⟩ => ⟨S_, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000, .f32⟩
  | .hbm, ⟨74, _⟩ => ⟨S850000, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000, .f32⟩
  | .hbm, ⟨84, _⟩ => ⟨S850000, .f32⟩
  | .hbm, ⟨85, _⟩ => ⟨S_, .i32⟩
  | .hbm, ⟨86, _⟩ => ⟨S850000, .i32⟩
  | .hbm, ⟨87, _⟩ => ⟨S850000, .i1⟩
  | .hbm, ⟨88, _⟩ => ⟨S_, .i32⟩
  | .hbm, ⟨89, _⟩ => ⟨S850000, .i32⟩
  | .hbm, ⟨90, _⟩ => ⟨S850000, .i32⟩
  | .hbm, ⟨91, _⟩ => ⟨S850000, .i32⟩
  | .hbm, ⟨92, _⟩ => ⟨S850000x1, .i32⟩
  | .hbm, ⟨93, _⟩ => ⟨S850000x128, .f32⟩
  | .hbm, ⟨94, _⟩ => ⟨S850000x1, .f32⟩
  | .hbm, ⟨95, _⟩ => ⟨S850000x128, .f32⟩
  | .hbm, ⟨96, _⟩ => ⟨S850000x128, .f32⟩
  | .hbm, ⟨97, _⟩ => ⟨S_, .f32⟩
  | .hbm, ⟨98, _⟩ => ⟨S50000x128, .f32⟩
  | .hbm, ⟨99, _⟩ => ⟨S850000x1, .i32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S50000x128, .f32⟩
  | .hbm, ⟨104, _⟩ => ⟨S50000x128, .f32⟩
  | .hbm, ⟨105, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_call0_v0 : Ref sig .tc := ⟨.hbm, 62, rfl⟩
abbrev main_call0_v1 : Ref sig .tc := ⟨.hbm, 63, rfl⟩
abbrev main_v45 : Ref sig .tc := ⟨.hbm, 64, rfl⟩
abbrev main_c : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_13 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]

class Facts₀ : Prop where
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S128x128_S128x128_1_0 : S128x128.Transposes [1, 0] S128x128
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  The mathematics both programs compute, as functions on index sets, at the extended reals.

  One ROW `xr : Fin D → EReal` of the node features is normalised: its mean is the row's sum divided by the
  float 128.0, its variance the sum of squared deviations divided by the same, and the gate is
  `(xr k − mean) · rsqrt(var + ε) · γ k + β k`. The hidden features of that row are the gate projected against the
  rows of the weight matrix: `h q = ∑ k, gate k · W q k` (the weight is stored [out, in], so the contraction runs over
  the second coordinate of both factors). After the graph aggregation `a`, the result is
  `tanh(a i + b (column of i)) · x i`.

  Division, reciprocal square root and hyperbolic tangent are the ideal ones (total on the extended reals); the two
  float literals are kept as their words, the same on both sides, and never evaluated.
-/
import Idealize.ShloMosaic.PureOps.Ideal
import Idealize.ShloMosaic.Lib.ValueIdx

noncomputable section

open scoped BigOperators

namespace Cert.NormProject

open Idealize.ShloMosaic Idealize.ShloMosaic.ValueIdx

/-- The divisor of both means: the float 128.0. -/
abbrev width : EReal := Ideal.ofBits .f32 0x43000000#32
/-- The variance's guard: the float nearest 1e-5. -/
abbrev guard : EReal := Ideal.ofBits .f32 0x3727C5AC#32

variable {D : Nat}

/-- A row's mean. -/
def rowMean (xr : Fin D → EReal) : EReal := Ideal.div (∑ k, xr k) width

/-- A row's variance about that mean. -/
def rowVar (xr : Fin D → EReal) : EReal :=
  Ideal.div (∑ k, (xr k - rowMean xr) * (xr k - rowMean xr)) width

/-- The normalised, scaled and shifted row. -/
def gate (xr γ β : Fin D → EReal) (k : Fin D) : EReal :=
  (xr k - rowMean xr) * Ideal.rsqrt (rowVar xr + guard) * γ k + β k

/-- The gate projected against the weight's rows. -/
def project {N : Nat} (xr γ β : Fin D → EReal) (W : Fin N → Fin D → EReal) (q : Fin N) : EReal :=
  ∑ k, gate xr γ β k * W q k

/-- `project` depends on its arguments only through their values. -/
theorem project_congr {N : Nat} {xr xr' γ γ' β β' : Fin D → EReal} {W W' : Fin N → Fin D → EReal} (q : Fin N)
    (hx : ∀ k, xr k = xr' k) (hγ : ∀ k, γ k = γ' k) (hβ : ∀ k, β k = β' k) (hW : ∀ q k, W q k = W' q k) :
    project xr γ β W q = project xr' γ' β' W' q := by
  rw [show xr = xr' from funext hx, show γ = γ' from funext hγ, show β = β' from funext hβ,
    show W = W' from funext fun q => funext (hW q)]

/-- The hidden features of every node: row `i 0` of `x` normalised and projected, read at column `i 1`. -/
def hidden {R N : Nat} (x : (⟨2, ![R, D]⟩ : Shape).Idx → EReal) (γ β : (⟨1, ![D]⟩ : Shape).Idx → EReal)
    (W : (⟨2, ![N, D]⟩ : Shape).Idx → EReal) : (⟨2, ![R, N]⟩ : Shape).Idx → EReal :=
  fun i => project (fun k => x (ix2 (i 0) k)) (fun k => γ (ix1 k)) (fun k => β (ix1 k)) (fun q k => W (ix2 q k)) (i 1)

/-- The gated output: the aggregate plus the bias of its column, through tanh, times the input entry. -/
def gated {R N : Nat} (a : (⟨2, ![R, N]⟩ : Shape).Idx → EReal) (b : (⟨1, ![N]⟩ : Shape).Idx → EReal)
    (x : (⟨2, ![R, N]⟩ : Shape).Idx → EReal) : (⟨2, ![R, N]⟩ : Shape).Idx → EReal :=
  fun i => Ideal.tanh (a i + b (ix1 (i 1))) * x i

/-- `hidden` at coordinates. -/
theorem hidden_ix2 {R N : Nat} (x : (⟨2, ![R, D]⟩ : Shape).Idx → EReal) (γ β : (⟨1, ![D]⟩ : Shape).Idx → EReal)
    (W : (⟨2, ![N, D]⟩ : Shape).Idx → EReal) (r : Fin R) (q : Fin N) :
    hidden x γ β W (ix2 r q)
      = project (fun k => x (ix2 r k)) (fun k => γ (ix1 k)) (fun k => β (ix1 k)) (fun q k => W (ix2 q k)) q := rfl

/-- `gated` at coordinates. -/
theorem gated_ix2 {R N : Nat} (a : (⟨2, ![R, N]⟩ : Shape).Idx → EReal) (b : (⟨1, ![N]⟩ : Shape).Idx → EReal)
    (x : (⟨2, ![R, N]⟩ : Shape).Idx → EReal) (r : Fin R) (q : Fin N) :
    gated a b x (ix2 r q) = Ideal.tanh (a (ix2 r q) + b (ix1 q)) * x (ix2 r q) := rfl

end Cert.NormProject

end
-- ==== Proof.RefValue.lean ====
/-
  The reference program read against the specification, at the extended reals.

  Stage by stage its operations are the specification's: the row sum divided by 128 is `rowMean` (the host sum starts from
  the float zero, which adds nothing), the sum of squared deviations divided by 128 is `rowVar`, the host reciprocal
  square root of the guarded variance is the ideal one, scale and shift are broadcast along the rows, and the
  `dot_general` against the TRANSPOSED weight contracts over k the gate at (r, k) with the weight at (q, k): the hidden
  features are `hidden`. The graph aggregation is a fixed function of the hidden features and the edge list (scatter-add of
  the gathered, normalised messages), named here `aggregate` and never opened. The last three operations add the bias
  along the rows, take tanh and multiply by the features: `gated`.
-/
import proofs.«177123_j35897336660176_1_alg».proof.Proof.RefRead
import proofs.«177123_j35897336660176_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Cert.NormProject
open Idealize.ShloMosaic Idealize.ShloMosaic.TcCoe Idealize.ShloMosaic.ValueIdx Idealize.SL.Sem

/-! ## The aggregation, as one function of the hidden features and the edge list (any float family) -/

section Aggregate
variable {F : FTy → Type} [FloatOps F]

/-- Messages gathered along the source nodes, scaled by the symmetric normalisation, scatter-added at the target nodes. -/
def aggregate (h : (⟨S50000x128, .f32⟩ : BufTy).Contents (Elt F)) (e : (⟨S2x800000, .i32⟩ : BufTy).Contents (Elt F)) :
    (⟨S50000x128, .f32⟩ : BufTy).Contents (Elt F) :=
  Host.scatterAdd scatter_S50000x128_S850000x1_S850000x128_1_0_0_1 (val_main_v72 (F := F)) (val_main_v73 (F := F) e)
    (mulf (Host.gather gather_S50000x128_S850000x1_S850000x128_1_0_n_n_0_1_1128 h (val_main_v67 (F := F) e)) (val_main_v70 (F := F) e))

/-- The reference's aggregate is that function of its own hidden features. -/
theorem aggregate_ref (x0 : (⟨S50000x128, .f32⟩ : BufTy).Contents (Elt F)) (x1 : (⟨S2x800000, .i32⟩ : BufTy).Contents (Elt F))
    (x2 x3 : (⟨S128, .f32⟩ : BufTy).Contents (Elt F)) (x4 : (⟨S128x128, .f32⟩ : BufTy).Contents (Elt F)) :
    val_main_v74 (F := F) x0 x1 x2 x3 x4 = aggregate (val_main_v25 (F := F) x0 x2 x3 x4) x1 := rfl

end Aggregate

/-! ## The index maps of the layout operations, at coordinates -/

section Indices
variable (r : Fin 50000) (k q : Fin 128) (u : Fin 1)

theorem e_v1 : idx_main_v1 (ix2 r u) = ix1 r := funext fun a => Fin.ext (by match a with | ⟨0, _⟩ => rfl)
theorem e_v0 : idx_main_v0 (ix1 r) k = ix2 r k := funext fun a => Fin.ext (by match a with | ⟨0, _⟩ => rfl | ⟨1, _⟩ => rfl)
theorem e_v4 : idx_main_v4 (ix2 r k) = ix2 r (0 : Fin 1) := funext fun a => Fin.ext (by match a with | ⟨0, _⟩ => rfl | ⟨1, _⟩ => rfl)
theorem e_v8 : idx_main_v8 (ix2 r u) = ix1 r := funext fun a => Fin.ext (by match a with | ⟨0, _⟩ => rfl)
theorem e_v7 : idx_main_v7 (ix1 r) k = ix2 r k := funext fun a => Fin.ext (by match a with | ⟨0, _⟩ => rfl | ⟨1, _⟩ => rfl)
theorem e_v11 : idx_main_v11 (ix2 r k) = ix2 r (0 : Fin 1) := funext fun a => Fin.ext (by match a with | ⟨0, _⟩ => rfl | ⟨1, _⟩ => rfl)
theorem e_v16 : idx_main_v16 (ix2 r k) = ix2 r (0 : Fin 1) := funext fun a => Fin.ext (by match a with | ⟨0, _⟩ => rfl | ⟨1, _⟩ => rfl)
theorem e_v19 : idx_main_v19 (ix2 r k) = ix2 (0 : Fin 1) k := funext fun a => Fin.ext (by match a with | ⟨0, _⟩ => rfl | ⟨1, _⟩ => rfl)
theorem e_v18 : idx_main_v18 (ix2 u k) = ix1 k := funext fun a => Fin.ext (by match a with | ⟨0, _⟩ => rfl)
theorem e_v22 : idx_main_v22 (ix2 r k) = ix2 (0 : Fin 1) k := funext fun a => Fin.ext (by match a with | ⟨0, _⟩ => rfl | ⟨1, _⟩ => rfl)
theorem e_v21 : idx_main_v21 (ix2 u k) = ix1 k := funext fun a => Fin.ext (by match a with | ⟨0, _⟩ => rfl)
theorem e_l25 : lidx_main_v25 (ix2 r q) k = ix2 r k := funext fun a => Fin.ext (by match a with | ⟨0, _⟩ => rfl | ⟨1, _⟩ => rfl)
theorem e_r25 : ridx_main_v25 (ix2 r q) k = ix2 k q := funext fun a => Fin.ext (by match a with | ⟨0, _⟩ => rfl | ⟨1, _⟩ => rfl)
theorem e_v24 : idx_main_v24 (ix2 k q) = ix2 q k := funext fun a => Fin.ext (by match a with | ⟨0, _⟩ => rfl | ⟨1, _⟩ => rfl)
theorem e_v76 : idx_main_v76 (ix2 r q) = ix2 (0 : Fin 1) q := funext fun a => Fin.ext (by match a with | ⟨0, _⟩ => rfl | ⟨1, _⟩ => rfl)
theorem e_v75 : idx_main_v75 (ix2 u q) = ix1 q := funext fun a => Fin.ext (by match a with | ⟨0, _⟩ => rfl)

end Indices

/-! ## The normalisation, row by row -/

variable (x0 : (⟨S50000x128, .f32⟩ : BufTy).Contents (Elt Ideal)) (x1 : (⟨S2x800000, .i32⟩ : BufTy).Contents (Elt Ideal))
  (x2 x3 : (⟨S128, .f32⟩ : BufTy).Contents (Elt Ideal)) (x4 : (⟨S128x128, .f32⟩ : BufTy).Contents (Elt Ideal)) (x5 : (⟨S128, .f32⟩ : BufTy).Contents (Elt Ideal))

/-- The mean column at row r is that row's mean. -/
theorem mean_ref (r : Fin 50000) (u : Fin 1) :
    val_main_v3 (F := Ideal) x0 (ix2 r u) = rowMean (fun k : Fin 128 => x0 (ix2 r k)) := by
  rw [val_main_v3_apply, val_main_v1_apply, e_v1, val_main_v0_apply, val_main_v2_apply]
  have hs : (∑ k : Fin 128, x0 (idx_main_v0 (ix1 r) k)) = ∑ k : Fin 128, x0 (ix2 r k) :=
    Finset.sum_congr rfl fun k _ => by rw [e_v0]
  rw [hs]
  show Ideal.div (Ideal.ofBits .f32 0x00000000#32 + ∑ k : Fin 128, x0 (ix2 r k)) (Ideal.ofBits .f32 0x43000000#32) = _
  rw [Ideal.ofBits_zero_f32, zero_add]
  rfl

/-- The deviation at (r, k), as it enters the variance. -/
theorem dev_ref (r : Fin 50000) (k : Fin 128) :
    val_main_v5 (F := Ideal) x0 (ix2 r k) = x0 (ix2 r k) - rowMean (fun k : Fin 128 => x0 (ix2 r k)) := by
  rw [val_main_v5_apply, val_main_v4_apply, e_v4, mean_ref]
  rfl

/-- The deviation at (r, k), as it enters the gate (the program computes it a second time). -/
theorem dev_ref' (r : Fin 50000) (k : Fin 128) :
    val_main_v12 (F := Ideal) x0 (ix2 r k) = x0 (ix2 r k) - rowMean (fun k : Fin 128 => x0 (ix2 r k)) := by
  rw [val_main_v12_apply, val_main_v11_apply, e_v11, mean_ref]
  rfl

/-- The variance column at row r is that row's variance. -/
theorem var_ref (r : Fin 50000) (u : Fin 1) :
    val_main_v10 (F := Ideal) x0 (ix2 r u) = rowVar (fun k : Fin 128 => x0 (ix2 r k)) := by
  rw [val_main_v10_apply, val_main_v8_apply, e_v8, val_main_v7_apply, val_main_v9_apply]
  have hs : (∑ k : Fin 128, val_main_v6 (F := Ideal) x0 (idx_main_v7 (ix1 r) k))
      = ∑ k : Fin 128, (x0 (ix2 r k) - rowMean (fun k : Fin 128 => x0 (ix2 r k))) * (x0 (ix2 r k) - rowMean (fun k : Fin 128 => x0 (ix2 r k))) :=
    Finset.sum_congr rfl fun k _ => by rw [e_v7, val_main_v6_apply, dev_ref]; rfl
  rw [hs]
  show Ideal.div (Ideal.ofBits .f32 0x00000000#32 + _) (Ideal.ofBits .f32 0x43000000#32) = _
  rw [Ideal.ofBits_zero_f32, zero_add]
  rfl

/-- The scale column at row r: the reciprocal square root of the guarded variance. -/
theorem scale_ref (r : Fin 50000) (u : Fin 1) :
    val_main_v15 (F := Ideal) x0 (ix2 r u) = Ideal.rsqrt (rowVar (fun k : Fin 128 => x0 (ix2 r k)) + guard) := by
  rw [val_main_v15_apply, val_main_v14_apply, var_ref, val_main_v13_apply]
  rfl

/-- The normalised, scaled and shifted features at (r, k). -/
theorem gate_ref (r : Fin 50000) (k : Fin 128) :
    val_main_v23 (F := Ideal) x0 x2 x3 (ix2 r k)
      = gate (fun k : Fin 128 => x0 (ix2 r k)) (fun k => x2 (ix1 k)) (fun k => x3 (ix1 k)) k := by
  rw [val_main_v23_apply, val_main_v20_apply, val_main_v17_apply, dev_ref', val_main_v16_apply, e_v16, scale_ref,
    val_main_v19_apply, e_v19, val_main_v18_apply, e_v18, val_main_v22_apply, e_v22, val_main_v21_apply, e_v21]
  rfl

/-- The reference's hidden features are the specification's. -/
theorem hidden_ref : val_main_v25 (F := Ideal) x0 x2 x3 x4 = hidden (R := 50000) (D := 128) (N := 128) x0 x2 x3 x4 := by
  funext i
  obtain ⟨r, q, rfl⟩ : ∃ (r : Fin 50000) (q : Fin 128), i = ix2 r q := ⟨i 0, i 1, eq_ix2 i⟩
  rw [val_main_v25_apply, hidden_ix2]
  unfold project
  refine Finset.sum_congr rfl fun k _ => ?_
  rw [e_l25, e_r25, gate_ref, val_main_v24_apply, e_v24]

/-- The reference's result: its aggregate plus the bias along the rows, through tanh, times the features. -/
theorem gated_ref : val_main_v79 (F := Ideal) x0 x1 x2 x3 x4 x5
    = gated (R := 50000) (N := 128) (val_main_v74 (F := Ideal) x0 x1 x2 x3 x4) x5 x0 := by
  funext i
  obtain ⟨r, q, rfl⟩ : ∃ (r : Fin 50000) (q : Fin 128), i = ix2 r q := ⟨i 0, i 1, eq_ix2 i⟩
  rw [val_main_v79_apply, val_main_v78_apply, val_main_v77_apply, val_main_v76_apply, e_v76, val_main_v75_apply, e_v75, gated_ix2]
  generalize val_main_v74 (F := Ideal) x0 x1 x2 x3 x4 = A
  rfl

/-- The reference's result array as the specification's composite of the arguments. -/
theorem result_ref : val_main_v79 (F := Ideal) x0 x1 x2 x3 x4 x5
    = gated (R := 50000) (N := 128) (aggregate (hidden (R := 50000) (D := 128) (N := 128) x0 x2 x3 x4) x1) x5 x0 := by
  rw [gated_ref, aggregate_ref, hidden_ref]

end Cert.ReferenceIdeal.RefValue

end
-- ==== Proof.LibKeepdims.lean ====
/-
  A row reduction that keeps its axis (`jnp.sum(x, axis=-1, keepdims=True)`, a mean or a variance per row) lowers to
  a reduction to `[a]`, a shape cast to the column `[a, 1]`, and — when the row statistic meets the rows again — a
  broadcast of that column to `[a, b]`. Read at an index given by coordinates:
  • the column cast `[a] → [a, 1]` at `(i, u)` is the vector at `i` (the unit coordinate `u` carries nothing);
  • the column broadcast `[a, 1] → [a, b]` at `(p, c)` is the column at `(p, 0)`: every entry of row `p` sees the
    one statistic of row `p`.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibRowReduce.lean ====
/-
  Row reductions of a rank-2 vector along its second axis, read at a row: the general facts a row-wise
  softmax, log-softmax or normalisation needs once both programs are down to one row.

  For a vector `x` of shape [R, D] and a row `r`:
  * the kernel's lane reduction with a maximum body is the fold of `max`, from the accumulator's value, over the
    row's entries `x (r, k)`, `k : Fin D` (`multiReduction_maximumf_row`);
  * the kernel's lane reduction with an add body is the sum of the row's entries (`multiReduction_add_row`);
  * the host's reduce with a maximum body is the same fold from the initial value (`hostReduce_maximumf_row`),
    and the host's sum is the initial value plus the sum of the row's entries (`hostReduceAdd_row`);
  * the f32 pattern of minus infinity is the bottom extended real (`ofBits_negInf_f32`), which `max` absorbs
    (`max_negInf_left`), so a maximum taken from minus infinity may be taken from it twice
    (`max_negInf_fold`).
  All at the ideal instance, where floats are extended reals.
-/
import Idealize.ShloMosaic.PureOps.Ideal.Laws
import Idealize.ShloMosaic.Lib.ValueIdx

noncomputable section

open scoped BigOperators

namespace Idealize.ShloMosaic.RowReduce

open Idealize.ShloMosaic Idealize.ShloMosaic.ValueIdx

variable {φ : FTy} {R D : Nat}

/-- Row `r` with column `k` put back on the reduced axis is the index (r, k). -/
theorem lift_row (h : (⟨2, ![R, D]⟩ : Shape).Reduces [1] (⟨1, ![R]⟩ : Shape)) (r : Fin R)
    (k : Fin ((⟨2, ![R, D]⟩ : Shape).size 1)) : h.lift (ix1 r) k = ix2 r (⟨k.val, k.isLt⟩ : Fin D) := by
  funext c; apply Fin.ext
  fin_cases c <;> rfl

/-- A lane reduction with a maximum body over the columns, at row `r`: the fold of `max` from the accumulator's
    value over that row's entries. -/
theorem multiReduction_maximumf_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.maximumf.neutral φ hφ) (r : Fin R) :
    multiReduction .maximumf [1] ⟨1, ![R]⟩ x acc h hφ hacc (ix1 r)
      = (Finset.univ : Finset (Fin D)).fold max (Ideal.ofBits φ acc) (fun k => x (ix2 r k)) := by
  rw [Ideal.multiReduction_maximumf_single]
  have hf : (x ∘ h.lift (ix1 r)) = fun k : Fin D => x (ix2 r k) := funext fun k => congrArg x (lift_row h r k)
  exact congrArg (fun f => Finset.fold max (Ideal.ofBits φ acc) f (Finset.univ : Finset (Fin D))) hf

/-- A lane reduction with an add body over the columns, at row `r`: the sum of that row's entries. -/
theorem multiReduction_add_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.add.neutral φ hφ) (r : Fin R) :
    multiReduction .add [1] ⟨1, ![R]⟩ x acc h hφ hacc (ix1 r) = ∑ k : Fin D, x (ix2 r k) := by
  rw [Ideal.multiReduction_add_single]
  exact Finset.sum_congr rfl fun k _ => congrArg x (lift_row h r k)

/-- The host's reduce with a maximum body over the columns, at row `r`: the fold of `max` from the initial
    value over that row's entries. -/
theorem hostReduce_maximumf_row {u : Shape} (x : FVec Ideal ⟨2, ![R, D]⟩ φ) (init : u.Idx → Ideal φ)
    (h' : (⟨2, ![R, D]⟩ : Shape).ReducesTo [1] (⟨1, ![R]⟩ : Shape))
    (h : (⟨2, ![R, D]⟩ : Shape).Reduces [1] (⟨1, ![R]⟩ : Shape)) (hu : 0 < u.numel) (r : Fin R) :
    Host.reduce FloatOps.maximumf x init h' hu (ix1 r)
      = (Finset.univ : Finset (Fin D)).fold max (init (Shape.Idx.first hu)) (fun k => x (ix2 r k)) := by
  rw [Host.reduce_eq_fold_single FloatOps.maximumf x init h' h hu]
  have hf : (x ∘ h.lift (ix1 r)) = fun k : Fin D => x (ix2 r k) := funext fun k => congrArg x (lift_row h r k)
  exact congrArg (fun f => Finset.fold max (init (Shape.Idx.first hu)) f (Finset.univ : Finset (Fin D))) hf

/-- The host's sum over the columns, at row `r`: the initial value plus the sum of that row's entries. -/
theorem hostReduceAdd_row (x : (⟨2, ![R, D]⟩ : Shape).Idx → EReal) (init : EReal)
    (h' : (⟨2, ![R, D]⟩ : Shape).ReducesTo [1] (⟨1, ![R]⟩ : Shape))
    (h : (⟨2, ![R, D]⟩ : Shape).Reduces [1] (⟨1, ![R]⟩ : Shape)) (r : Fin R) :
    Ideal.hostReduceAdd h' x init (ix1 r) = init + ∑ k : Fin D, x (ix2 r k) := by
  rw [Ideal.hostReduceAdd_single h' h]
  exact congrArg (init + ·) (Finset.sum_congr rfl fun k _ => congrArg x (lift_row h r k))

/-- The f32 pattern of minus infinity denotes the bottom extended real. -/
theorem ofBits_negInf_f32 : Ideal.ofBits .f32 0xFF800000#32 = (⊥ : EReal) := by
  simp [Ideal.ofBits, Ideal.ieee]

/-- Minus infinity is neutral for `max`. -/
theorem max_negInf_left (y : EReal) : max (Ideal.ofBits .f32 0xFF800000#32) y = y := by
  rw [ofBits_negInf_f32]; exact max_eq_right bot_le

/-- A maximum taken from minus infinity, joined once more with minus infinity, is itself. -/
theorem max_negInf_fold (f : Fin D → EReal) :
    max (Ideal.ofBits .f32 0xFF800000#32) ((Finset.univ : Finset (Fin D)).fold max (Ideal.ofBits .f32 0xFF800000#32) f)
      = (Finset.univ : Finset (Fin D)).fold max (Ideal.ofBits .f32 0xFF800000#32) f :=
  max_negInf_left _

end Idealize.ShloMosaic.RowReduce

end
-- ==== Proof.NormProjectValue.lean ====
/-
  The first kernel region (layer normalisation fused with the projection) read as a value, at the extended reals.

  At grid point `t` the body loads rows `5000 t … 5000 t + 4999` of the node features and the whole scale, shift and weight
  arrays. Each loaded row is normalised (mean and variance as lane sums divided by the float 128, the reciprocal square
  root of the guarded variance, scale and shift along the row) and the normalised block is multiplied into the weight with
  the contraction over the SECOND axis of both factors, into a zero accumulator; the changes of float format around the
  product are the identity here. So entry (p, q) of what is stored is `project` of row p of the block at column q, which
  depends on row `5000 t + p` of the features alone: point `t` writes back block `t` of the whole-array function `hidden`,
  the ten blocks tile the array, and the region leaves the hidden features in its result array.
-/
import proofs.«177123_j35897336660176_1_alg».proof.Proof.Gen.KernelIdeal.Frame
import proofs.«177123_j35897336660176_1_alg».proof.Proof.Spec
import proofs.«177123_j35897336660176_1_alg».proof.Proof.LibKeepdims
import proofs.«177123_j35897336660176_1_alg».proof.Proof.LibRowReduce
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NormProjectValue

open Cert.KernelIdeal Cert.KernelIdeal.Gen Cert.NormProject
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-! ## The product: both factors contracted over their second axis -/

theorem lhs_axis0 (i : S5000x128.Idx) (q : dot_S5000x128_S128x128_S5000x128_1_1_0_0_n_n.contr.Idx) :
    (dot_S5000x128_S128x128_S5000x128_1_1_0_0_n_n.lhsIdx i q 0).val = (i 0).val := by
  unfold DotDims.lhsIdx
  rw [dif_neg (show ¬(0 : Fin S5000x128.rank) ∈ dot_S5000x128_S128x128_S5000x128_1_1_0_0_n_n.lhsBatch by decide), dif_pos (show (0 : Fin S5000x128.rank) ∈ dot_S5000x128_S128x128_S5000x128_1_1_0_0_n_n.lhsNonContracting by decide)]
  rfl
theorem lhs_axis1 (i : S5000x128.Idx) (q : dot_S5000x128_S128x128_S5000x128_1_1_0_0_n_n.contr.Idx) :
    (dot_S5000x128_S128x128_S5000x128_1_1_0_0_n_n.lhsIdx i q 1).val = (q ⟨0, by decide⟩).val :=
  dot_S5000x128_S128x128_S5000x128_1_1_0_0_n_n.lhsIdx_val_of_single rfl i q
theorem rhs_axis0 (i : S5000x128.Idx) (q : dot_S5000x128_S128x128_S5000x128_1_1_0_0_n_n.contr.Idx) :
    (dot_S5000x128_S128x128_S5000x128_1_1_0_0_n_n.rhsIdx i q 0).val = (i 1).val := by
  unfold DotDims.rhsIdx
  rw [dif_neg (show ¬(0 : Fin S128x128.rank) ∈ dot_S5000x128_S128x128_S5000x128_1_1_0_0_n_n.rhsBatch by decide), dif_pos (show (0 : Fin S128x128.rank) ∈ dot_S5000x128_S128x128_S5000x128_1_1_0_0_n_n.rhsNonContracting by decide)]
  rfl
theorem rhs_axis1 (i : S5000x128.Idx) (q : dot_S5000x128_S128x128_S5000x128_1_1_0_0_n_n.contr.Idx) :
    (dot_S5000x128_S128x128_S5000x128_1_1_0_0_n_n.rhsIdx i q 1).val = (q ⟨0, by decide⟩).val :=
  dot_S5000x128_S128x128_S5000x128_1_1_0_0_n_n.rhsIdx_val_of_single rfl i q

/-- The product into a zero accumulator, at entry (p, q): the sum over k of row p of the left factor against ROW q of
    the right factor. -/
theorem product_apply (a : FVec Ideal S5000x128 .bf16) (w : FVec Ideal S128x128 .bf16) (p : Fin 5000) (q : Fin 128) :
    matmul dot_S5000x128_S128x128_S5000x128_1_1_0_0_n_n none a w (constant (F := Ideal) S5000x128 .f32 0x00000000#32) (ix2 p q)
      = ∑ k : Fin 128, a (ix2 p k) * w (ix2 q k) := by
  simp only [matmul]
  rw [Ideal.matmul_constant_zero_apply, ← Equiv.sum_comp (contrEquiv1 dot_S5000x128_S128x128_S5000x128_1_1_0_0_n_n 128 rfl rfl).symm]
  refine Finset.sum_congr rfl fun k _ => ?_
  have hk := contrEquiv1_symm_val dot_S5000x128_S128x128_S5000x128_1_1_0_0_n_n 128 rfl rfl k
  have el : dot_S5000x128_S128x128_S5000x128_1_1_0_0_n_n.lhsIdx (ix2 p q) ((contrEquiv1 dot_S5000x128_S128x128_S5000x128_1_1_0_0_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_1_0_0_n_n.rhsIdx (ix2 p q) ((contrEquiv1 dot_S5000x128_S128x128_S5000x128_1_1_0_0_n_n 128 rfl rfl).symm k) = ix2 q k := funext fun a => Fin.ext (by
    match a with
    | ⟨0, _⟩ => exact rhs_axis0 _ _
    | ⟨1, _⟩ => exact (rhs_axis1 _ _).trans hk)
  rw [el, er]

/-! ## The stored value at an entry -/

/-- A lane sum of a block, at row p: the sum of that row's entries. -/
theorem laneSum_apply (v : FVec Ideal S5000x128 .f32) (hacc : (0x00000000#32 : BitVec 32) = 0x00000000#32) (p : Fin 5000) :
    multiReduction .add [1] S5000 v 0x00000000#32 reduces_S5000x128_S5000 (.inl rfl) hacc (ix1 p) = ∑ k : Fin 128, v (ix2 p k) :=
  RowReduce.multiReduction_add_row (R := 5000) (D := 128) v _ reduces_S5000x128_S5000 (.inl rfl) hacc p

/-- The column of row means of a block, as the body computes it. -/
def meanCol (x : FVec Ideal S5000x128 .f32) : FVec Ideal S5000x1 .f32 :=
  divf (shapeCast S5000x1 (multiReduction .add [1] S5000 x 0x00000000#32 reduces_S5000x128_S5000 (.inl rfl) rfl) shapeCasts_S5000_S5000x1)
    (broadcast S5000x1 (Scalar.ofBits (F := Ideal) .f32 0x43000000#32))

/-- The block of deviations from the row means. -/
def devBlock (x : FVec Ideal S5000x128 .f32) : FVec Ideal S5000x128 .f32 :=
  subf x (broadcastTo S5000x128 (meanCol x) broadcasts_S5000x1_S5000x128)

/-- The column of row variances. -/
def varCol (x : FVec Ideal S5000x128 .f32) : FVec Ideal S5000x1 .f32 :=
  divf (shapeCast S5000x1 (multiReduction .add [1] S5000 (mulf (devBlock x) (devBlock x)) 0x00000000#32 reduces_S5000x128_S5000 (.inl rfl) rfl) shapeCasts_S5000_S5000x1)
    (broadcast S5000x1 (Scalar.ofBits (F := Ideal) .f32 0x43000000#32))

/-- The normalised, scaled and shifted block. -/
def gateBlock (x : FVec Ideal S5000x128 .f32) (g b : FVec Ideal S128 .f32) : FVec Ideal S5000x128 .f32 :=
  addf (mulf (mulf (devBlock x)
      (broadcastTo S5000x128 (rsqrt (addf (varCol x) (broadcast S5000x1 (Scalar.ofBits (F := Ideal) .f32 0x3727C5AC#32)))) broadcasts_S5000x1_S5000x128))
      (broadcastTo S5000x128 (shapeCast S1x128 g shapeCasts_S128_S1x128) broadcasts_S1x128_S5000x128))
    (broadcastTo S5000x128 (shapeCast S1x128 b shapeCasts_S128_S1x128) broadcasts_S1x128_S5000x128)

/-- What the body stores is the product of the gate block (its change of format the identity) with the weight. -/
theorem stored_eq (x : FVec Ideal S5000x128 .f32) (g b : FVec Ideal S128 .f32) (w : FVec Ideal S128x128 .f32) :
    k0_pay1 (F := Ideal) x g b w
      = matmul dot_S5000x128_S128x128_S5000x128_1_1_0_0_n_n none (truncf .bf16 (gateBlock x g b) bitsLt_bf16_f32) (truncf .bf16 w bitsLt_bf16_f32)
          (constant (F := Ideal) S5000x128 .f32 0x00000000#32) := rfl

theorem meanCol_apply (x : FVec Ideal S5000x128 .f32) (p : Fin 5000) (u : Fin 1) :
    meanCol x (ix2 p u) = rowMean (fun k : Fin 128 => x (ix2 p k)) := by
  unfold meanCol
  show Ideal.div (shapeCast S5000x1 (multiReduction .add [1] S5000 x 0x00000000#32 reduces_S5000x128_S5000 (.inl rfl) rfl) shapeCasts_S5000_S5000x1 (ix2 p u))
    (Ideal.ofBits .f32 0x43000000#32) = _
  refine (congrArg (fun s => Ideal.div s (Ideal.ofBits .f32 0x43000000#32))
    ((Cert.Keepdims.shapeCast_a_a1_apply _ shapeCasts_S5000_S5000x1 p u).trans (laneSum_apply x rfl p))).trans ?_
  rfl

theorem devBlock_apply (x : FVec Ideal S5000x128 .f32) (p : Fin 5000) (k : Fin 128) :
    devBlock x (ix2 p k) = x (ix2 p k) - rowMean (fun k : Fin 128 => x (ix2 p k)) := by
  unfold devBlock
  show x (ix2 p k) - broadcastTo S5000x128 (meanCol x) broadcasts_S5000x1_S5000x128 (ix2 p k) = _
  refine congrArg (fun s => x (ix2 p k) - s) ?_
  exact (Cert.Keepdims.broadcastTo_a1_ab_apply _ broadcasts_S5000x1_S5000x128 p k).trans (meanCol_apply x p 0)

theorem varCol_apply (x : FVec Ideal S5000x128 .f32) (p : Fin 5000) (u : Fin 1) :
    varCol x (ix2 p u) = rowVar (fun k : Fin 128 => x (ix2 p k)) := by
  unfold varCol
  show Ideal.div (shapeCast S5000x1 (multiReduction .add [1] S5000 (mulf (devBlock x) (devBlock x)) 0x00000000#32 reduces_S5000x128_S5000 (.inl rfl) rfl) shapeCasts_S5000_S5000x1 (ix2 p u))
    (Ideal.ofBits .f32 0x43000000#32) = _
  refine (congrArg (fun s => Ideal.div s (Ideal.ofBits .f32 0x43000000#32))
    ((Cert.Keepdims.shapeCast_a_a1_apply _ shapeCasts_S5000_S5000x1 p u).trans (laneSum_apply (mulf (devBlock x) (devBlock x)) rfl p))).trans ?_
  unfold rowVar
  refine congrArg (fun s => Ideal.div s width) (Finset.sum_congr rfl fun k _ => ?_)
  show devBlock x (ix2 p k) * devBlock x (ix2 p k) = _
  rw [devBlock_apply]

theorem gateBlock_apply (x : FVec Ideal S5000x128 .f32) (g b : FVec Ideal S128 .f32) (p : Fin 5000) (k : Fin 128) :
    gateBlock x g b (ix2 p k)
      = gate (fun k : Fin 128 => x (ix2 p k)) (fun k => g (ix1 k)) (fun k => b (ix1 k)) k := by
  unfold gateBlock gate
  show devBlock x (ix2 p k)
        * broadcastTo S5000x128 (rsqrt (addf (varCol x) (broadcast S5000x1 (Scalar.ofBits (F := Ideal) .f32 0x3727C5AC#32)))) broadcasts_S5000x1_S5000x128 (ix2 p k)
        * broadcastTo S5000x128 (shapeCast S1x128 g shapeCasts_S128_S1x128) broadcasts_S1x128_S5000x128 (ix2 p k)
      + broadcastTo S5000x128 (shapeCast S1x128 b shapeCasts_S128_S1x128) broadcasts_S1x128_S5000x128 (ix2 p k) = _
  rw [devBlock_apply, Cert.Keepdims.broadcastTo_a1_ab_apply, broadcastTo_1b_ab_apply, broadcastTo_1b_ab_apply,
    shapeCast_a_1a_apply, shapeCast_a_1a_apply]
  show (x (ix2 p k) - rowMean (fun k : Fin 128 => x (ix2 p k))) * Ideal.rsqrt (varCol x (ix2 p (0 : Fin 1)) + guard) * g (ix1 k) + b (ix1 k) = _
  rw [varCol_apply]

/-- Entry (p, q) of what the body stores: row p of the loaded block, normalised, scaled, shifted and projected against
    row q of the weight. -/
theorem stored_apply (x : FVec Ideal S5000x128 .f32) (g b : FVec Ideal S128 .f32) (w : FVec Ideal S128x128 .f32)
    (p : Fin 5000) (q : Fin 128) :
    k0_pay1 (F := Ideal) x g b w (ix2 p q)
      = project (fun k : Fin 128 => x (ix2 p k)) (fun k => g (ix1 k)) (fun k => b (ix1 k)) (fun q k => w (ix2 q k)) q := by
  rw [stored_eq]
  refine (product_apply _ _ p q).trans ?_
  unfold project
  refine Finset.sum_congr rfl fun k _ => ?_
  show gateBlock x g b (ix2 p k) * w (ix2 q k) = _
  rw [gateBlock_apply]

/-! ## From blocks to the array -/

/-- The four arrays the region reads, as it finds them, at their literal types. -/
abbrev features (c : Dev nD) : S50000x128.Idx → EReal := V c main_arg0
abbrev scale (c : Dev nD) : S128.Idx → EReal := V c main_arg2
abbrev shift (c : Dev nD) : S128.Idx → EReal := V c main_arg3
abbrev weight (c : Dev nD) : S128x128.Idx → EReal := V c main_arg4

/-- The printed index maps over the grid: the feature window and the output move together down the rows, block (t, 0);
    scale, shift and weight stay at their one block. -/
theorem index_facts : ∀ t : Fin cfg0.N, win0_0.index t (0 : Fin 2) = t.val
    ∧ win0_0.index t (1 : Fin 2) = 0
    ∧ win0_1.index t (0 : Fin 1) = 0
    ∧ win0_2.index t (0 : Fin 1) = 0
    ∧ win0_3.index t (0 : Fin 2) = 0
    ∧ win0_3.index t (1 : Fin 2) = 0
    ∧ win0_4.index t (1 : Fin 2) = 0
    ∧ win0_4.index t (0 : Fin 2) = t.val :=
  (by decide +kernel : ∀ t : Fin grid0.N, _)

/-- What point `t` writes back is block `t` of `hidden` of the arrays as the region finds them. -/
theorem flushed_eq (c : Dev nD) (t : Fin cfg0.N) :
    (dat0 V c).flushed 4 t = ((cfg0.win 4).blk t).view.read (Elt Ideal)
      (hidden (features V c) (scale V c) (shift V c) (weight V c)) := by
  show (cfg0.win 4).cut (grid0.coords t) ((dat0 V c).after 4 t) = _
  rw [after0_4]
  unfold out0_4
  rw [View.canon_unit_zero origin2]
  simp only [View.ld_unit_zero (S := S5000x128) origin2, View.ld_unit_zero (S := S128) origin1,
    View.ld_unit_zero (S := S128x128) origin2]
  obtain ⟨e0, e1, e2, e3, e4, e5, e6, e7⟩ := index_facts t
  have hN : cfg0.N = 10 := N_0
  have ht : t.val < 10 := hN ▸ t.isLt
  funext j
  obtain ⟨p, q, rfl⟩ : ∃ (p : Fin 5000) (q : Fin 128), j = ix2 p q := ⟨j 0, j 1, eq_ix2 j⟩
  have hp : p.val < 5000 := p.isLt
  have hq : q.val < 128 := q.isLt
  have hrow : t.val * 5000 + p.val < 50000 := by omega
  have hi : ((cfg0.win 4).blk t).view.emb (ix2 p q) = (ix2 (⟨t.val * 5000 + p.val, hrow⟩ : Fin 50000) q : S50000x128.Idx) := by
    funext a; apply Fin.ext
    match a with
    | ⟨0, _⟩ => show win0_4.index t (0 : Fin 2) * 5000 + 1 * p.val = t.val * 5000 + p.val; omega
    | ⟨1, _⟩ => show win0_4.index t (1 : Fin 2) * 128 + 1 * q.val = q.val; omega
  show k0_pay1 (F := Ideal) (iblk0 V c 0 t) (iblk0 V c 1 t) (iblk0 V c 2 t) (iblk0 V c 3 t) (ix2 p q)
    = hidden (features V c) (scale V c) (shift V c) (weight V c) (((cfg0.win 4).blk t).view.emb (ix2 p q))
  rw [hi, hidden_ix2]
  refine (stored_apply (iblk0 V c 0 t) (iblk0 V c 1 t) (iblk0 V c 2 t) (iblk0 V c 3 t) p q).trans ?_
  refine project_congr q (fun k => ?_) (fun k => ?_) (fun k => ?_) (fun q' k => ?_)
  · have hk : k.val < 128 := k.isLt
    show features V c (((cfg0.win 0).blk t).view.emb (ix2 p k)) = features V c (ix2 (⟨t.val * 5000 + p.val, hrow⟩ : Fin 50000) k)
    refine congrArg (features V c) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · have hk : k.val < 128 := k.isLt
    show scale V c (((cfg0.win 1).blk t).view.emb (ix1 k)) = scale V c (ix1 k)
    refine congrArg (scale V c) (funext fun a => Fin.ext ?_)
    match a with
    | ⟨0, _⟩ => show win0_1.index t (0 : Fin 1) * 128 + 1 * k.val = k.val; omega
  · have hk : k.val < 128 := k.isLt
    show shift V c (((cfg0.win 2).blk t).view.emb (ix1 k)) = shift V c (ix1 k)
    refine congrArg (shift V c) (funext fun a => Fin.ext ?_)
    match a with
    | ⟨0, _⟩ => show win0_2.index t (0 : Fin 1) * 128 + 1 * k.val = k.val; omega
  · have hk : k.val < 128 := k.isLt
    have hq' : q'.val < 128 := q'.isLt
    show weight V c (((cfg0.win 3).blk t).view.emb (ix2 q' k)) = weight V c (ix2 q' k)
    refine congrArg (weight V c) (funext fun a => Fin.ext ?_)
    match a with
    | ⟨0, _⟩ => show win0_3.index t (0 : Fin 2) * 128 + 1 * q'.val = q'.val; omega
    | ⟨1, _⟩ => show win0_3.index t (1 : Fin 2) * 128 + 1 * k.val = k.val; omega

/-- An index of the array lies in point `t`'s block iff each coordinate lies in the block's range on its axis. -/
theorem mem_block (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v0).slice (win0_4.rect t)).set ↔ _
  rw [View.set_slice_whole, Rect.mem_set_unit]
  exact Iff.rfl

/-- Every entry of the array is written back by some point: row `r` by point `r / 5000`. -/
theorem covered (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, e6, e7⟩ := index_facts ⟨(i 0).val / 5000, ht⟩
  refine ⟨⟨(i 0).val / 5000, ht⟩, flush0_4 _, (mem_block _ i).mpr fun a => ?_⟩
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    rw [e7]; show (i 0).val / 5000 * 5000 ≤ (i 0).val ∧ (i 0).val < (i 0).val / 5000 * 5000 + 5000; omega
  | ⟨1, _⟩ =>
    show win0_4.index ⟨(i 0).val / 5000, ht⟩ (1 : Fin 2) * 128 ≤ (i 1).val
      ∧ (i 1).val < win0_4.index ⟨(i 0).val / 5000, ht⟩ (1 : Fin 2) * 128 + 128
    rw [e6]; omega

/-- The region's result array: the hidden features of the arrays as the region finds them. -/
theorem final (c : Dev nD) :
    (dat0 V c).arrAt 4 cfg0.N = hidden (features V c) (scale V c) (shift V c) (weight V c) :=
  (dat0 V c).arrAt_eq_of_cover 4 _ (fun t _ => flushed_eq V c t) covered

end Cert.KernelIdeal.NormProjectValue

end
-- ==== Proof.TanhGateValue.lean ====
/-
  The second kernel region (the tanh gate) read as a value, at the extended reals.

  At grid point `t` the body loads rows `5000 t … 5000 t + 4999` of the aggregate and of the node features and the whole
  bias vector, and stores `tanh(a + b) · x` entry by entry, the bias broadcast along the rows. So what point `t` writes
  back is block `t` of ONE whole-array function, `gated a b x`, of the arrays as the region finds them; the ten blocks
  tile the array (row `r` lies in block `r / 5000`), hence the result array ends holding `gated a b x`.
-/
import proofs.«177123_j35897336660176_1_alg».proof.Proof.Gen.KernelIdeal.Frame
import proofs.«177123_j35897336660176_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.TanhGate

open Cert.KernelIdeal Cert.KernelIdeal.Gen Cert.NormProject
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The stored value at an entry: the aggregate there plus the bias of its column, through tanh, times the feature there. -/
theorem stored_apply (a : Vec Ideal S5000x128 .f32) (b : Vec Ideal S128 .f32) (x : Vec Ideal S5000x128 .f32)
    (p : Fin 5000) (q : Fin 128) :
    k1_pay1 (F := Ideal) a b x (ix2 p q) = Ideal.tanh (a (ix2 p q) + b (ix1 q)) * x (ix2 p q) := by
  unfold k1_pay1
  show Ideal.tanh (shapeCast S5000x128 a shapeCasts_S5000x128_S5000x128 (ix2 p q)
      + broadcastTo S5000x128 (shapeCast S1x128 b shapeCasts_S128_S1x128) broadcasts_S1x128_S5000x128 (ix2 p q)) * x (ix2 p q) = _
  rw [shapeCast_self, broadcastTo_1b_ab_apply, shapeCast_a_1a_apply]

/-- The three arrays the region reads, as it finds them, at their literal types. -/
abbrev aggregate (c : Dev nD) : S50000x128.Idx → EReal := V c main_v49
abbrev bias (c : Dev nD) : S128.Idx → EReal := V c main_arg5
abbrev features (c : Dev nD) : S50000x128.Idx → EReal := V c main_arg0

/-- The printed index maps over the grid: the two row-blocked inputs move with the output, the bias window stays at its
    one block, and the output's block index is (t, 0). -/
theorem index_facts : ∀ t : Fin cfg1.N, win1_0.index t (0 : Fin 2) = win1_3.index t (0 : Fin 2)
    ∧ win1_0.index t (1 : Fin 2) = win1_3.index t (1 : Fin 2)
    ∧ win1_2.index t (0 : Fin 2) = win1_3.index t (0 : Fin 2)
    ∧ win1_2.index t (1 : Fin 2) = win1_3.index t (1 : Fin 2)
    ∧ win1_1.index t (0 : Fin 1) = 0
    ∧ win1_3.index t (1 : Fin 2) = 0
    ∧ win1_3.index t (0 : Fin 2) = t.val :=
  (by decide +kernel : ∀ t : Fin grid1.N, _)

/-- What point `t` writes back is block `t` of `gated` of the arrays as the region finds them. -/
theorem flushed_eq (c : Dev nD) (t : Fin cfg1.N) :
    (dat1 V c).flushed 3 t = ((cfg1.win 3).blk t).view.read (Elt Ideal)
      (gated (aggregate V c) (bias V c) (features V c)) := by
  show (cfg1.win 3).cut (grid1.coords t) ((dat1 V c).after 3 t) = _
  rw [after1_3]
  unfold out1_3
  rw [View.canon_unit_zero origin2]
  simp only [View.ld_unit_zero (S := S5000x128) origin2, View.ld_unit_zero (S := S128) origin1]
  obtain ⟨e0, e1, e2, e3, e4, e5, e6⟩ := index_facts t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (ix2 p q)
    = gated (aggregate V c) (bias V c) (features V c) (((cfg1.win 3).blk t).view.emb (ix2 p q))
  refine (stored_apply (iblk1 V c 0 t) (iblk1 V c 1 t) (iblk1 V c 2 t) p q).trans ?_
  show Ideal.tanh (aggregate V c (((cfg1.win 0).blk t).view.emb (ix2 p q)) + bias V c (((cfg1.win 1).blk t).view.emb (ix1 q)))
      * features V c (((cfg1.win 2).blk t).view.emb (ix2 p q))
    = Ideal.tanh (aggregate V c (((cfg1.win 3).blk t).view.emb (ix2 p q)) + bias V c (ix1 ((((cfg1.win 3).blk t).view.emb (ix2 p q)) 1)))
      * features V c (((cfg1.win 3).blk t).view.emb (ix2 p q))
  have hj0 : p.val < 5000 := p.isLt
  have hj1 : q.val < 128 := q.isLt
  have h0 : ((cfg1.win 0).blk t).view.emb (ix2 p q) = ((cfg1.win 3).blk t).view.emb (ix2 p q) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 128 + 1 * q.val; omega
  have h2 : ((cfg1.win 2).blk t).view.emb (ix2 p q) = ((cfg1.win 3).blk t).view.emb (ix2 p q) := by
    funext a; apply Fin.ext
    match a with
    | ⟨0, _⟩ => show win1_2.index t (0 : Fin 2) * 5000 + 1 * p.val = win1_3.index t (0 : Fin 2) * 5000 + 1 * p.val; omega
    | ⟨1, _⟩ => show win1_2.index t (1 : Fin 2) * 128 + 1 * q.val = win1_3.index t (1 : Fin 2) * 128 + 1 * q.val; omega
  have h1 : ((cfg1.win 1).blk t).view.emb (ix1 q) = ix1 ((((cfg1.win 3).blk t).view.emb (ix2 p q)) 1) := by
    funext a; apply Fin.ext
    match a with
    | ⟨0, _⟩ => show win1_1.index t (0 : Fin 1) * 128 + 1 * q.val = win1_3.index t (1 : Fin 2) * 128 + 1 * q.val; omega
  rw [h0, h1, h2]
  rfl

/-- An index of the array lies in point `t`'s block iff each coordinate lies in the block's range on its axis. -/
theorem mem_block (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v50).slice (win1_3.rect t)).set ↔ _
  rw [View.set_slice_whole, Rect.mem_set_unit]
  exact Iff.rfl

/-- Every entry of the array is written back by some point: row `r` by point `r / 5000`. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, e5, e6⟩ := index_facts ⟨(i 0).val / 5000, ht⟩
  refine ⟨⟨(i 0).val / 5000, ht⟩, flush1_3 _, (mem_block _ i).mpr fun a => ?_⟩
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    rw [e5]; omega

/-- The result array after the region: `gated` of the aggregate, the bias and the features as the region finds them. -/
theorem final (c : Dev nD) :
    (dat1 V c).arrAt 3 cfg1.N = gated (aggregate V c) (bias V c) (features V c) :=
  (dat1 V c).arrAt_eq_of_cover 3 _ (fun t _ => flushed_eq V c t) covered

end Cert.KernelIdeal.TanhGate

end
-- ==== Proof.KernelValue.lean ====
/-
  The idealized kernel program's result array as the specification's composite of the arguments.

  The program runs the normalise-and-project region, then a stretch of host operations, then the tanh-gate region. The
  first region leaves the hidden features in its result array and touches nothing else. The host stretch reads that
  array and the edge list and writes the graph aggregate: it is, operation for operation, the function `aggregate` of
  those two arrays (the same function the reference applies to its own hidden features); it is compared at an arbitrary
  float family, where nothing evaluates. The second region finds the aggregate, the bias and the features (the two
  arguments still as launched) and leaves `gated` of them in the program's result.
-/
import proofs.«177123_j35897336660176_1_alg».proof.Proof.KernelRun
import proofs.«177123_j35897336660176_1_alg».proof.Proof.NormProjectValue
import proofs.«177123_j35897336660176_1_alg».proof.Proof.TanhGateValue
import proofs.«177123_j35897336660176_1_alg».proof.Proof.RefValue
import Idealize.ShloMosaic.Lib.StableHlo.Run

set_option maxRecDepth 16384

noncomputable section

namespace Cert.KernelIdeal.Result

open Cert.KernelIdeal Cert.KernelIdeal.Gen Cert.NormProject
open Idealize.ShloMosaic Idealize.ShloMosaic.TcCoe Idealize.ShloMosaic.ValueIdx Idealize.SL.Sem Idealize.ShloMosaic.StableHlo

/-! ## The host stretch between the regions, at any float family -/

section AnyFamily
variable {F : FTy → Type} [FloatOps F]
variable (m : (ℓ : Loc nD τ sig) → Buf (Elt F) ℓ) (ρ : Dev nD → PrngReg)

set_option maxHeartbeats 4000000 in
/-- At the second region's entry the aggregate's buffer holds `aggregate` of the first region's result array and the
    edge list, both as the first region left them. -/
theorem aggregate_at_entry (c : Dev nD) :
    W4 m ρ c (Proc.devRef .tc main_v49)
      = Cert.ReferenceIdeal.RefValue.aggregate (F := F) (W1 m ρ c (Proc.devRef .tc main_v0)) (W1 m ρ c (Proc.devRef .tc main_arg1)) := by
  show StableHlo.after hostOps1_2 (StableHlo.after hostOps1_1 (StableHlo.after hostOps1 (W1 m ρ c))) (Proc.devRef .tc main_v49) = _
  after_results_simp
  rfl

end AnyFamily

/-! ## The arrays at the region boundaries, at the extended reals -/

variable (m : (ℓ : Loc nD τ sig) → Buf (Elt Ideal) ℓ) (ρ : Dev nD → PrngReg)

/-- The arguments as launched, at their literal types. -/
abbrev argFeatures (c : Dev nD) : S50000x128.Idx → EReal := m ((c : Thread nD τ).loc main_arg0)
abbrev argEdges (c : Dev nD) : (⟨S2x800000, .i32⟩ : BufTy).Contents (Elt Ideal) := m ((c : Thread nD τ).loc main_arg1)
abbrev argScale (c : Dev nD) : S128.Idx → EReal := m ((c : Thread nD τ).loc main_arg2)
abbrev argShift (c : Dev nD) : S128.Idx → EReal := m ((c : Thread nD τ).loc main_arg3)
abbrev argWeight (c : Dev nD) : S128x128.Idx → EReal := m ((c : Thread nD τ).loc main_arg4)
abbrev argBias (c : Dev nD) : S128.Idx → EReal := m ((c : Thread nD τ).loc main_arg5)

/-- After the first region its result array holds the hidden features of the arguments. -/
theorem hidden_at_exit (c : Dev nD) :
    W1 m ρ c (Proc.devRef .tc main_v0) = hidden (argFeatures m c) (argScale m c) (argShift m c) (argWeight m c) :=
  (W1_arr m ρ c 4).trans (NormProjectValue.final (V0 m ρ) c)

/-- The first region leaves the edge list as launched. -/
theorem edges_at_exit (c : Dev nD) : W1 m ρ c (Proc.devRef .tc main_arg1) = argEdges m c :=
  W1_of_ne m ρ c main_arg1 (by decide)

/-- The second region finds the aggregate of the hidden features over the edge list, -/
theorem entry_aggregate (c : Dev nD) :
    TanhGate.aggregate (V4 m ρ) c
      = Cert.ReferenceIdeal.RefValue.aggregate (F := Ideal) (hidden (argFeatures m c) (argScale m c) (argShift m c) (argWeight m c)) (argEdges m c) := by
  show W4 m ρ c (Proc.devRef .tc main_v49) = _
  rw [aggregate_at_entry, hidden_at_exit, edges_at_exit]

/-- the bias as launched (the region does not write it, nor does anything before), -/
theorem entry_bias (c : Dev nD) : TanhGate.bias (V4 m ρ) c = argBias m c :=
  ((W5_arr m ρ c 1).trans (((dat1 (V4 m ρ) c).arrAt_in 1 rfl _).trans (A_eq1 (V4 m ρ) c 1))).symm.trans (W5_main_arg5 m ρ c)

/-- and the features as launched. -/
theorem entry_features (c : Dev nD) : TanhGate.features (V4 m ρ) c = argFeatures m c :=
  ((W5_arr m ρ c 2).trans (((dat1 (V4 m ρ) c).arrAt_in 2 rfl _).trans (A_eq1 (V4 m ρ) c 2))).symm.trans (W5_main_arg0 m ρ c)

/-- The specification's composite of the arguments: what both programs return. -/
abbrev composite (c : Dev nD) : S50000x128.Idx → EReal :=
  gated (Cert.ReferenceIdeal.RefValue.aggregate (F := Ideal) (hidden (argFeatures m c) (argScale m c) (argShift m c) (argWeight m c)) (argEdges m c))
    (argBias m c) (argFeatures m c)

/-- After the second region the program's result array holds the composite. -/
theorem result_at_exit (c : Dev nD) : W5 m ρ c (Proc.devRef .tc main_v50) = composite m c := by
  refine ((W5_arr m ρ c 3).trans (TanhGate.final (V4 m ρ) c)).trans ?_
  rw [entry_aggregate, entry_bias, entry_features]

/-- The run of the idealized kernel program with its result named. -/
theorem run : θ_run defs (onTc (τ := τ) (main (F := Ideal))) ⟨m, fun _ => 0, ρ⟩ (fun r => ∀ c : Dev nD,
      r.2.mem ((c.tc : Thread nD τ).loc main_v50) = composite m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_at_exit m ρ c), (h c).2⟩) (GenP.run_named m ρ)

end Cert.KernelIdeal.Result

end
-- ==== Proof.lean ====
/-
  A graph layer: layer normalisation of the node features, a linear projection, a symmetric-normalised aggregation over
  the edges with doubled self loops, a bias, tanh, and a gate by the input features.

  The kernel program fuses normalisation and projection in one tiled region (ten row blocks of 5000 nodes), aggregates
  on the host, and fuses bias, tanh and gate in a second tiled region; the reference does everything on the host. At the
  extended reals both compute, index by index,
      tanh( aggregate(hidden(x, γ, β, W), edges) + b ) · x,
  where `hidden` normalises each row and contracts it with the rows of `W`: the kernel's block product against the weight
  (contracting the second axis of both factors, its changes of float format the identity) and the reference's product
  against the transposed weight are the same sums; means and variances are the same lane sums divided by the same float;
  `aggregate` is the same chain of host operations in both programs and is never opened. No law that fails at the
  infinities is used, so the precondition is not opened.

  The three frames: the kernel programs' are the generated ones; the reference's is its run with the result dropped.
  `preserves` is trivial: the idealization rewrote no operation.
-/
import proofs.«177123_j35897336660176_1_alg».proof.Defs
import proofs.«177123_j35897336660176_1_alg».proof.Proof.Gen.Kernel
import proofs.«177123_j35897336660176_1_alg».proof.Proof.Gen.Kernel.Frame
import proofs.«177123_j35897336660176_1_alg».proof.Proof.Gen.KernelIdeal
import proofs.«177123_j35897336660176_1_alg».proof.Proof.Gen.KernelIdeal.Frame
import proofs.«177123_j35897336660176_1_alg».proof.Proof.Gen.ReferenceIdeal
import proofs.«177123_j35897336660176_1_alg».proof.Proof.Gen.Pre_finite_inputs
import proofs.«177123_j35897336660176_1_alg».proof.Proof.RefRun
import proofs.«177123_j35897336660176_1_alg».proof.Proof.RefRead
import proofs.«177123_j35897336660176_1_alg».proof.Proof.RefValue
import proofs.«177123_j35897336660176_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs end with the composite of the (agreeing) arguments in their result arrays. -/
theorem algebraic : Cert.algebraic_KernelIdeal_ReferenceIdeal := by
  intro m ρ m' ρ' _ hagree
  refine ⟨Cert.KernelIdeal.Result.composite m, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v79_eq, Cert.ReferenceIdeal.RefValue.result_ref,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
